-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S16x512 : Shape := ⟨2, ![16, 512]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_arg3 : IVec S16x512 32) (main_v13 : IVec S_ 1) (main_v15 : IVec S16x512 1) (main_c_5 : IVec S_ 32) : IVec S_ 1 :=
  let main_v16 : IVec S16x512 32 := broadcastInDim S16x512 ![] bcast_S_S16x512 main_c_5
  let main_v17 : IVec S16x512 1 := cmpi .slt main_arg3 main_v16
  let main_v18 : IVec S16x512 1 := andi main_v15 main_v17
  let main_c_6 : IVec S_ 1 := constantI S_ 1 1#1
  let main_v19 : IVec S_ 1 := (fun x v => Host.reduce IntOp.andi x v reducesTo_S16x512_S_d0_1 h_S_) main_v18 main_c_6
  let main_v20 : IVec S_ 1 := andi main_v13 main_v19
  main_v20

def fn {F : FTy → Type} [FloatOps F] (main_arg0 : FVec F S4x16x4096x64 .f32) (main_arg1 : FVec F S4x16x4096x64 .f32) (main_arg2 : FVec F S4x16x4096x64 .f32) (main_arg3 : IVec S16x512 32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  let main_c_4 : IVec S_ 32 := constantI S_ 32 4294963200#32
  let main_v14 : IVec S16x512 32 := broadcastInDim S16x512 ![] bcast_S_S16x512 main_c_4
  let main_v15 : IVec S16x512 1 := cmpi .sge main_arg3 main_v14
  let main_c_5 : IVec S_ 32 := constantI S_ 32 4096#32
  fn_part1 (F := F) main_arg3 main_v13 main_v15 main_c_5
-- ==== Kernel.lean ====
abbrev S4x16x4096x64 : Shape := ⟨4, ![4, 16, 4096, 64]⟩
abbrev S16x512 : Shape := ⟨2, ![16, 512]⟩
abbrev S1x16x512x1 : Shape := ⟨4, ![1, 16, 512, 1]⟩
abbrev S_ : Shape := ⟨0, ![]⟩
abbrev S16x512x1 : Shape := ⟨3, ![16, 512, 1]⟩
abbrev S1 : Shape := ⟨1, ![1]⟩
abbrev S1x1x1 : Shape := ⟨3, ![1, 1, 1]⟩
abbrev S4x16x512x64 : Shape := ⟨4, ![4, 16, 512, 64]⟩
abbrev S1x1x4096x64 : Shape := ⟨4, ![1, 1, 4096, 64]⟩
abbrev S1x1x512x64 : Shape := ⟨4, ![1, 1, 512, 64]⟩
abbrev S4096x64 : Shape := ⟨2, ![4096, 64]⟩
abbrev S512x64 : Shape := ⟨2, ![512, 64]⟩
abbrev S4096x512 : Shape := ⟨2, ![4096, 512]⟩
abbrev S4096 : Shape := ⟨1, ![4096]⟩
abbrev S4096x1 : Shape := ⟨2, ![4096, 1]⟩

abbrev nBuf : Space → Nat
  | .hbm => 54
  | .vmem => 8
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S16x512, .i32⟩
  | .hbm, ⟨4, _⟩ => ⟨S1x16x512x1, .i32⟩
  | .hbm, ⟨5, _⟩ => ⟨S_, .i32⟩
  | .hbm, ⟨6, _⟩ => ⟨S1x16x512x1, .i32⟩
  | .hbm, ⟨7, _⟩ => ⟨S1x16x512x1, .i1⟩
  | .hbm, ⟨8, _⟩ => ⟨S_, .i32⟩
  | .hbm, ⟨9, _⟩ => ⟨S1x16x512x1, .i32⟩
  | .hbm, ⟨10, _⟩ => ⟨S1x16x512x1, .i32⟩
  | .hbm, ⟨11, _⟩ => ⟨S1x16x512x1, .i32⟩
  | .hbm, ⟨12, _⟩ => ⟨S16x512x1, .i32⟩
  | .hbm, ⟨13, _⟩ => ⟨S1, .i32⟩
  | .hbm, ⟨14, _⟩ => ⟨S_, .i32⟩
  | .hbm, ⟨15, _⟩ => ⟨S16x512x1, .i32⟩
  | .hbm, ⟨16, _⟩ => ⟨S16x512x1, .i1⟩
  | .hbm, ⟨17, _⟩ => ⟨S1x1x1, .i32⟩
  | .hbm, ⟨18, _⟩ => ⟨S16x512x1, .i32⟩
  | .hbm, ⟨19, _⟩ => ⟨S16x512x1, .i1⟩
  | .hbm, ⟨20, _⟩ => ⟨S16x512x1, .i1⟩
  | .hbm, ⟨21, _⟩ => ⟨S_, .i1⟩
  | .hbm, ⟨22, _⟩ => ⟨S16x512, .i1⟩
  | .hbm, ⟨23, _⟩ => ⟨S4x16x512x64, .f32⟩
  | .hbm, ⟨24, _⟩ => ⟨S4x16x512x64, .i1⟩
  | .hbm, ⟨25, _⟩ => ⟨S_, .f32⟩
  | .hbm, ⟨26, _⟩ => ⟨S4x16x512x64, .f32⟩
  | .hbm, ⟨27, _⟩ => ⟨S4x16x512x64, .f32⟩
  | .hbm, ⟨28, _⟩ => ⟨S4x16x512x64, .bf16⟩
  | .hbm, ⟨29, _⟩ => ⟨S_, .i32⟩
  | .hbm, ⟨30, _⟩ => ⟨S1x16x512x1, .i32⟩
  | .hbm, ⟨31, _⟩ => ⟨S1x16x512x1, .i1⟩
  | .hbm, ⟨32, _⟩ => ⟨S_, .i32⟩
  | .hbm, ⟨33, _⟩ => ⟨S1x16x512x1, .i32⟩
  | .hbm, ⟨34, _⟩ => ⟨S1x16x512x1, .i32⟩
  | .hbm, ⟨35, _⟩ => ⟨S1x16x512x1, .i32⟩
  | .hbm, ⟨36, _⟩ => ⟨S16x512x1, .i32⟩
  | .hbm, ⟨37, _⟩ => ⟨S1, .i32⟩
  | .hbm, ⟨38, _⟩ => ⟨S_, .i32⟩
  | .hbm, ⟨39, _⟩ => ⟨S16x512x1, .i32⟩
  | .hbm, ⟨40, _⟩ => ⟨S16x512x1, .i1⟩
  | .hbm, ⟨41, _⟩ => ⟨S1x1x1, .i32⟩
  | .hbm, ⟨42, _⟩ => ⟨S16x512x1, .i32⟩
  | .hbm, ⟨43, _⟩ => ⟨S16x512x1, .i1⟩
  | .hbm, ⟨44, _⟩ => ⟨S16x512x1, .i1⟩
  | .hbm, ⟨45, _⟩ => ⟨S_, .i1⟩
  | .hbm, ⟨46, _⟩ => ⟨S16x512, .i1⟩
  | .hbm, ⟨47, _⟩ => ⟨S4x16x512x64, .f32⟩
  | .hbm, ⟨48, _⟩ => ⟨S4x16x512x64, .i1⟩
  | .hbm, ⟨49, _⟩ => ⟨S_, .f32⟩
  | .hbm, ⟨50, _⟩ => ⟨S4x16x512x64, .f32⟩
  | .hbm, ⟨51, _⟩ => ⟨S4x16x512x64, .f32⟩
  | .hbm, ⟨52, _⟩ => ⟨S4x16x512x64, .bf16⟩
  | .hbm, ⟨53, _⟩ => ⟨S4x16x4096x64, .f32⟩
  | .local _ .vmem, ⟨0, _⟩ => ⟨S1x1x4096x64, .f32⟩
  | .local _ .vmem, ⟨1, _⟩ => ⟨S1x1x4096x64, .f32⟩
  | .local _ .vmem, ⟨2, _⟩ => ⟨S1x1x512x64, .bf16⟩
  | .local _ .vmem, ⟨3, _⟩ => ⟨S1x1x512x64, .bf16⟩
  | .local _ .vmem, ⟨4, _⟩ => ⟨S1x1x512x64, .bf16⟩
  | .local _ .vmem, ⟨5, _⟩ => ⟨S1x1x512x64, .bf16⟩
  | .local _ .vmem, ⟨6, _⟩ => ⟨S1x1x4096x64, .f32⟩
  | .local _ .vmem, ⟨7, _⟩ => ⟨S1x1x4096x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S16x512_S1x16x512x1_1_2 : S16x512.BroadcastsInDim S1x16x512x1 (![1, 2] : Fin 2 → Fin S1x16x512x1.rank)
  bcast_S_S1x16x512x1 : S_.BroadcastsInDim S1x16x512x1 (![] : Fin 0 → Fin S1x16x512x1.rank)
  shapeCasts_S1x16x512x1_S16x512x1 : S1x16x512x1.ShapeCasts S16x512x1
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  h_S_ : 0 < S_.numel
  bcast_S16x512_S4x16x512x64_1_2 : S16x512.BroadcastsInDim S4x16x512x64 (![1, 2] : Fin 2 → Fin S4x16x512x64.rank)
  bcast_S_S4x16x512x64 : S_.BroadcastsInDim S4x16x512x64 (![] : Fin 0 → Fin S4x16x512x64.rank)
  bitsLt_bf16_f32 : FTy.bits .bf16 < FTy.bits .f32
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  reduces_S4096x512_S4096 : S4096x512.Reduces [1] S4096
  shapeCasts_S4096_S4096x1 : S4096.ShapeCasts S4096x1
  broadcasts_S4096x1_S4096x512 : S4096x1.Broadcasts S4096x512
  broadcasts_S4096x1_S4096x64 : S4096x1.Broadcasts S4096x64
  shapeCasts_S4096x64_S1x1x4096x64 : S4096x64.ShapeCasts S1x1x4096x64
  gather_S4x16x4096x64_S16x512x1_S4x16x512x64_03_2_1_0_2_2_41164_wf : GatherDims.WF S4x16x4096x64 S16x512x1 S4x16x512x64 [0, 3] [2] [1] [2] [0] 2 ![4, 1, 1, 64]
  dot_S4096x64_S512x64_S4096x512_1_1_0_0_n_n_wf : DotDims.WF S4096x64 S512x64 S4096x512 [1] [1] [0] [0] [] []
  dot_S4096x512_S512x64_S4096x64_1_0_0_1_n_n_wf : DotDims.WF S4096x512 S512x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x64.size a ≤ S4x16x4096x64.size a
  hwx0_0 : ∀ i : grid0.Coords, EltTy.bits .f32 = 32 ∨ (Rect.block (s := S4x16x4096x64) S1x1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x64.size a ≤ S4x16x512x64.size a
  hwx0_1 : ∀ i : grid0.Coords, EltTy.bits .bf16 = 32 ∨ (Rect.block (s := S4x16x512x64) S1x1x512x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x64.size a ≤ S4x16x512x64.size a
  hwx0_2 : ∀ i : grid0.Coords, EltTy.bits .bf16 = 32 ∨ (Rect.block (s := S4x16x512x64) S1x1x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096x64.size a ≤ S4x16x4096x64.size a
  hwx0_3 : ∀ i : grid0.Coords, EltTy.bits .f32 = 32 ∨ (Rect.block (s := S4x16x4096x64) S1x1x4096x64.size (cc0_transform_3 i) (hinb0_3 i)).WholeWords (EltTy.packing .f32)

variable [Facts₀]

def gather_S4x16x4096x64_S16x512x1_S4x16x512x64_03_2_1_0_2_2_41164 : GatherDims S4x16x4096x64 S16x512x1 S4x16x512x64 where
  offsetDims := [0, 3]
  collapsedSliceDims := [2]
  operandBatchingDims := [1]
  startIndicesBatchingDims := [0]
  startIndexMap := [2]
  indexVectorDim := 2
  sliceSizes := ![4, 1, 1, 64]
  wf := gather_S4x16x4096x64_S16x512x1_S4x16x512x64_03_2_1_0_2_2_41164_wf
def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf

abbrev win0_0 : Pipeline.Window sig grid0 :=
  Pipeline.Window.ofSpec (Memref.whole main_arg0) S1x1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x64 : Shape := ⟨4, ![4, 16, 4096, 64]⟩
abbrev S16x512 : Shape := ⟨2, ![16, 512]⟩
abbrev S1x16x512x1 : Shape := ⟨4, ![1, 16, 512, 1]⟩
abbrev S_ : Shape := ⟨0, ![]⟩
abbrev S16x512x1 : Shape := ⟨3, ![16, 512, 1]⟩
abbrev S1 : Shape := ⟨1, ![1]⟩
abbrev S1x1x1 : Shape := ⟨3, ![1, 1, 1]⟩
abbrev S4x16x512x64 : Shape := ⟨4, ![4, 16, 512, 64]⟩
abbrev S4x16x4096x512 : Shape := ⟨4, ![4, 16, 4096, 512]⟩
abbrev S4x16x4096 : Shape := ⟨3, ![4, 16, 4096]⟩
abbrev S4x16x4096x1 : Shape := ⟨4, ![4, 16, 4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S16x512, .i32⟩
  | .hbm, ⟨4, _⟩ => ⟨S1x16x512x1, .i32⟩
  | .hbm, ⟨5, _⟩ => ⟨S_, .i32⟩
  | .hbm, ⟨6, _⟩ => ⟨S1x16x512x1, .i32⟩
  | .hbm, ⟨7, _⟩ => ⟨S1x16x512x1, .i1⟩
  | .hbm, ⟨8, _⟩ => ⟨S_, .i32⟩
  | .hbm, ⟨9, _⟩ => ⟨S1x16x512x1, .i32⟩
  | .hbm, ⟨10, _⟩ => ⟨S1x16x512x1, .i32⟩
  | .hbm, ⟨11, _⟩ => ⟨S1x16x512x1, .i32⟩
  | .hbm, ⟨12, _⟩ => ⟨S16x512x1, .i32⟩
  | .hbm, ⟨13, _⟩ => ⟨S1, .i32⟩
  | .hbm, ⟨14, _⟩ => ⟨S_, .i32⟩
  | .hbm, ⟨15, _⟩ => ⟨S16x512x1, .i32⟩
  | .hbm, ⟨16, _⟩ => ⟨S16x512x1, .i1⟩
  | .hbm, ⟨17, _⟩ => ⟨S1x1x1, .i32⟩
  | .hbm, ⟨18, _⟩ => ⟨S16x512x1, .i32⟩
  | .hbm, ⟨19, _⟩ => ⟨S16x512x1, .i1⟩
  | .hbm, ⟨20, _⟩ => ⟨S16x512x1, .i1⟩
  | .hbm, ⟨21, _⟩ => ⟨S_, .i1⟩
  | .hbm, ⟨22, _⟩ => ⟨S16x512, .i1⟩
  | .hbm, ⟨23, _⟩ => ⟨S4x16x512x64, .f32⟩
  | .hbm, ⟨24, _⟩ => ⟨S4x16x512x64, .i1⟩
  | .hbm, ⟨25, _⟩ => ⟨S_, .f32⟩
  | .hbm, ⟨26, _⟩ => ⟨S4x16x512x64, .f32⟩
  | .hbm, ⟨27, _⟩ => ⟨S4x16x512x64, .f32⟩
  | .hbm, ⟨28, _⟩ => ⟨S1x16x512x1, .i32⟩
  | .hbm, ⟨29, _⟩ => ⟨S_, .i32⟩
  | .hbm, ⟨30, _⟩ => ⟨S1x16x512x1, .i32⟩
  | .hbm, ⟨31, _⟩ => ⟨S1x16x512x1, .i1⟩
  | .hbm, ⟨32, _⟩ => ⟨S_, .i32⟩
  | .hbm, ⟨33, _⟩ => ⟨S1x16x512x1, .i32⟩
  | .hbm, ⟨34, _⟩ => ⟨S1x16x512x1, .i32⟩
  | .hbm, ⟨35, _⟩ => ⟨S1x16x512x1, .i32⟩
  | .hbm, ⟨36, _⟩ => ⟨S16x512x1, .i32⟩
  | .hbm, ⟨37, _⟩ => ⟨S1, .i32⟩
  | .hbm, ⟨38, _⟩ => ⟨S_, .i32⟩
  | .hbm, ⟨39, _⟩ => ⟨S16x512x1, .i32⟩
  | .hbm, ⟨40, _⟩ => ⟨S16x512x1, .i1⟩
  | .hbm, ⟨41, _⟩ => ⟨S1x1x1, .i32⟩
  | .hbm, ⟨42, _⟩ => ⟨S16x512x1, .i32⟩
  | .hbm, ⟨43, _⟩ => ⟨S16x512x1, .i1⟩
  | .hbm, ⟨44, _⟩ => ⟨S16x512x1, .i1⟩
  | .hbm, ⟨45, _⟩ => ⟨S_, .i1⟩
  | .hbm, ⟨46, _⟩ => ⟨S16x512, .i1⟩
  | .hbm, ⟨47, _⟩ => ⟨S4x16x512x64, .f32⟩
  | .hbm, ⟨48, _⟩ => ⟨S4x16x512x64, .i1⟩
  | .hbm, ⟨49, _⟩ => ⟨S_, .f32⟩
  | .hbm, ⟨50, _⟩ => ⟨S4x16x512x64, .f32⟩
  | .hbm, ⟨51, _⟩ => ⟨S4x16x512x64, .f32⟩
  | .hbm, ⟨52, _⟩ => ⟨S4x16x4096x512, .f32⟩
  | .hbm, ⟨53, _⟩ => ⟨S_, .f32⟩
  | .hbm, ⟨54, _⟩ => ⟨S4x16x4096x512, .f32⟩
  | .hbm, ⟨55, _⟩ => ⟨S4x16x4096x512, .f32⟩
  | .hbm, ⟨56, _⟩ => ⟨S_, .f32⟩
  | .hbm, ⟨57, _⟩ => ⟨S4x16x4096, .f32⟩
  | .hbm, ⟨58, _⟩ => ⟨S_, .f32⟩
  | .hbm, ⟨59, _⟩ => ⟨S4x16x4096, .f32⟩
  | .hbm, ⟨60, _⟩ => ⟨S4x16x4096, .f32⟩
  | .hbm, ⟨61, _⟩ => ⟨S4x16x4096x1, .f32⟩
  | .hbm, ⟨62, _⟩ => ⟨S4x16x4096x512, .f32⟩
  | .hbm, ⟨63, _⟩ => ⟨S4x16x4096x512, .f32⟩
  | .hbm, ⟨64, _⟩ => ⟨S4x16x4096x512, .f32⟩
  | .hbm, ⟨65, _⟩ => ⟨S_, .f32⟩
  | .hbm, ⟨66, _⟩ => ⟨S4x16x4096, .f32⟩
  | .hbm, ⟨67, _⟩ => ⟨S4x16x4096x1, .f32⟩
  | .hbm, ⟨68, _⟩ => ⟨S4x16x4096x512, .f32⟩
  | .hbm, ⟨69, _⟩ => ⟨S4x16x4096x512, .f32⟩
  | .hbm, ⟨70, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v3 : Ref sig .tc := ⟨.hbm, 51, rfl⟩
abbrev main_v4 : Ref sig .tc := ⟨.hbm, 52, rfl⟩
abbrev main_cst : Ref sig .tc := ⟨.hbm, 53, rfl⟩
abbrev main_v5 : Ref sig .tc := ⟨.hbm, 54, rfl⟩
abbrev main_v6 : Ref sig .tc := ⟨.hbm, 55, rfl⟩
abbrev main_cst_0 : Ref sig .tc := ⟨.hbm, 56, rfl⟩
abbrev main_v7 : Ref sig .tc := ⟨.hbm, 57, rfl⟩
abbrev main_cst_1 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_cst_2 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩

abbrev nD : Nat := 1
abbrev τ : Topo := Topo.v7x

variable {F : FTy → Type} [FloatOps F]

class Facts₀ : Prop where
  bcast_S16x512_S1x16x512x1_1_2 : S16x512.BroadcastsInDim S1x16x512x1 (![1, 2] : Fin 2 → Fin S1x16x512x1.rank)
  bcast_S_S1x16x512x1 : S_.BroadcastsInDim S1x16x512x1 (![] : Fin 0 → Fin S1x16x512x1.rank)
  shapeCasts_S1x16x512x1_S16x512x1 : S1x16x512x1.ShapeCasts S16x512x1
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  h_S_ : 0 < S_.numel
  bcast_S16x512_S4x16x512x64_1_2 : S16x512.BroadcastsInDim S4x16x512x64 (![1, 2] : Fin 2 → Fin S4x16x512x64.rank)
  bcast_S_S4x16x512x64 : S_.BroadcastsInDim S4x16x512x64 (![] : Fin 0 → Fin S4x16x512x64.rank)
  bcast_S_S4x16x4096x512 : S_.BroadcastsInDim S4x16x4096x512 (![] : Fin 0 → Fin S4x16x4096x512.rank)
  reducesTo_S4x16x4096x512_S4x16x4096_d3 : S4x16x4096x512.ReducesTo [3] S4x16x4096
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S4x16x4096x1_S4x16x4096x512_0_1_2_3 : S4x16x4096x1.BroadcastsInDim S4x16x4096x512 (![0, 1, 2, 3] : Fin 4 → Fin S4x16x4096x512.rank)
  gather_S4x16x4096x64_S16x512x1_S4x16x512x64_03_2_1_0_2_2_41164_wf : GatherDims.WF S4x16x4096x64 S16x512x1 S4x16x512x64 [0, 3] [2] [1] [2] [0] 2 ![4, 1, 1, 64]
  dot_S4x16x4096x64_S4x16x512x64_S4x16x4096x512_3_3_2_2_01_01_wf : DotDims.WF S4x16x4096x64 S4x16x512x64 S4x16x4096x512 [3] [3] [2] [2] [0, 1] [0, 1]
  dot_S4x16x4096x512_S4x16x512x64_S4x16x4096x64_3_2_2_3_01_01_wf : DotDims.WF S4x16x4096x512 S4x16x512x64 S4x16x4096x64 [3] [2] [2] [3] [0, 1] [0, 1]

variable [Facts₀]

def gather_S4x16x4096x64_S16x512x1_S4x16x512x64_03_2_1_0_2_2_41164 : GatherDims S4x16x4096x64 S16x512x1 S4x16x512x64 where
  offsetDims := [0, 3]
  collapsedSliceDims := [2]
  operandBatchingDims := [1]
  startIndicesBatchingDims := [0]
  startIndexMap := [2]
  indexVectorDim := 2
  sliceSizes := ![4, 1, 1, 64]
  wf := gather_S4x16x4096x64_S16x512x1_S4x16x512x64_03_2_1_0_2_2_41164_wf
def dot_S4x16x4096x64_S4x16x512x64_S4x16x4096x512_3_3_2_2_01_01 : DotDims S4x16x4096x64 S4x16x512x64 S4x16x4096x512 where
  lhsContracting := [3]
  rhsContracting := [3]
  lhsNonContracting := [2]
  rhsNonContracting := [2]
  lhsBatch := [0, 1]
  rhsBatch := [0, 1]
  wf := dot_S4x16x4096x64_S4x16x512x64_S4x16x4096x512_3_3_2_2_01_01_wf
def dot_S4x16x4096x512_S4x16x512x64_S4x16x4096x64_3_2_2_3_01_01 : DotDims S4x16x4096x512 S4x16x512x64 S4x16x4096x64 where
  lhsContracting := [3]
  rhsContracting := [2]
  lhsNonContracting := [2]
  rhsNonContracting := [3]
  lhsBatch := [0, 1]
  rhsBatch := [0, 1]
  wf := dot_S4x16x4096x512_S4x16x512x64_S4x16x4096x64_3_2_2_3_01_01_wf

class Facts : Prop extends Facts₀ where

variable [Facts]
-- ==== Proof.AttentionRow.lean ====
/-
  One query row of softmax attention over a finite set of keys, written in the two ways the two programs compute it,
  and the proof that the two are one extended real when every entry involved is a real number.

  Both forms use the scores s k, the maximum M of the scores, the weights w k = exp (s k - M) and their sum l = ∑ k, w k.
  * `rowK`: s k = ∑ e, (q e * 2⁻³) * K k e (the scale applied to the query first), M the maximum over k from −∞, and the
    output (∑ k, w k * V k d) / l (ONE division, after the weighted sum).
  * `rowR`: s k = (∑ e, q e * K k e) * 2⁻³ (the scale applied to the product), M the same maximum taken once more against
    −∞, and the output ∑ k, (w k / (0 + l)) * V k d (the weights normalised first).
  With real entries the scores are real, M is real (the key set is not empty), every weight is a positive real, l is a
  positive real, and the two outputs are the same real number: the product with 2⁻³ moves through the finite sum, and
  division by l ≠ 0 distributes over it. On the extended reals neither step holds in general (∞ − ∞, 0 / 0), which is why
  the statement asks for real entries.
-/
import Idealize.ShloMosaic.PureOps.Ideal
import Idealize.ShloMosaic.PureOps.Ideal.Laws

noncomputable section

namespace Cert.Attn

open Idealize.ShloMosaic

variable {ι κ δ : Type} [Fintype ι] [Fintype κ] [Fintype δ]

/-- The scale 2⁻³ = 1/√64, as the f32 word both programs carry. -/
abbrev scale : EReal := Ideal.ofBits .f32 0x3E000000#32
/-- −∞, the word both row maxima start from. -/
abbrev negInf : EReal := Ideal.ofBits .f32 0xFF800000#32
/-- The word 0.0 a host sum starts from. -/
abbrev zero32 : EReal := Ideal.ofBits .f32 0x00000000#32

/-- Score of key `k`, the query scaled first. -/
def scoreK (q : ι → EReal) (K : κ → ι → EReal) (k : κ) : EReal := ∑ e : ι, (q e * scale) * K k e

/-- Score of key `k`, the product scaled afterwards. -/
def scoreR (q : ι → EReal) (K : κ → ι → EReal) (k : κ) : EReal := (∑ e : ι, q e * K k e) * scale

/-- The attention row with one division after the weighted sum. -/
def rowK (q : ι → EReal) (K : κ → ι → EReal) (V : κ → δ → EReal) (d : δ) : EReal :=
  Ideal.div (∑ k : κ, Ideal.exp (scoreK q K k - (Finset.univ : Finset κ).fold max negInf (scoreK q K)) * V k d)
    (∑ k : κ, Ideal.exp (scoreK q K k - (Finset.univ : Finset κ).fold max negInf (scoreK q K)))

/-- The attention row with the weights normalised before the weighted sum. -/
def rowR (q : ι → EReal) (K : κ → ι → EReal) (V : κ → δ → EReal) (d : δ) : EReal :=
  ∑ k : κ, Ideal.div (Ideal.exp (scoreR q K k - max negInf ((Finset.univ : Finset κ).fold max negInf (scoreR q K))))
      (zero32 + ∑ k' : κ, Ideal.exp (scoreR q K k' - max negInf ((Finset.univ : Finset κ).fold max negInf (scoreR q K))))
    * V k d

/-- The word 0x3E000000 is the real 1/8. -/
private theorem scale_eq : scale = (((1 : ℝ) / 8 : ℝ) : EReal) := by
  simp [Ideal.ofBits, Ideal.ieee, -EReal.coe_mul]; norm_num

/-- The word 0xFF800000 is −∞. -/
private theorem negInf_eq : negInf = ⊥ := by simp [Ideal.ofBits, Ideal.ieee]

/-- The word 0x00000000 is 0. -/
private theorem zero32_eq : zero32 = 0 := Ideal.ofBits_zero_f32

/-- The coercion of a finite sum of reals is the sum of the coercions. -/
private theorem coe_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The maximum from −∞ over a finite set of reals is −∞ only for the empty set; otherwise it is a real. -/
private theorem fold_max_coe_aux {α : Type} (s : Finset α) (f : α → ℝ) :
    s = ∅ ∨ ∃ M : ℝ, s.fold max (⊥ : EReal) (fun a => (f a : EReal)) = (M : EReal) := by
  classical
  induction s using Finset.induction_on with
  | empty => exact Or.inl rfl
  | insert a s ha ih =>
    right
    rw [Finset.fold_insert ha]
    rcases ih with rfl | ⟨M, hM⟩
    · exact ⟨f a, by rw [Finset.fold_empty, max_bot_right]⟩
    · exact ⟨max (f a) M, by rw [hM]; exact (EReal.coe_strictMono.monotone.map_max).symm⟩

/-- Over a nonempty key set the maximum of real scores, started from −∞, is a real. -/
private theorem fold_max_coe [Nonempty κ] (f : κ → ℝ) :
    ∃ M : ℝ, (Finset.univ : Finset κ).fold max negInf (fun k => (f k : EReal)) = (M : EReal) := by
  rw [negInf_eq]
  rcases fold_max_coe_aux (Finset.univ : Finset κ) f with h | h
  · exact absurd h Finset.univ_nonempty.ne_empty
  · exact h

/-- With real entries the score with the query scaled first is a real. -/
private theorem scoreK_coe (q : ι → ℝ) (K : κ → ι → ℝ) (k : κ) :
    scoreK (fun e => (q e : EReal)) (fun k e => (K k e : EReal)) k = ((∑ e : ι, (q e * (1 / 8)) * K k e : ℝ) : EReal) := by
  unfold scoreK
  rw [scale_eq, coe_sum]
  exact Finset.sum_congr rfl fun e _ => by rw [EReal.coe_mul, EReal.coe_mul]

/-- With real entries the score with the product scaled afterwards is the same real. -/
private theorem scoreR_coe (q : ι → ℝ) (K : κ → ι → ℝ) (k : κ) :
    scoreR (fun e => (q e : EReal)) (fun k e => (K k e : EReal)) k = ((∑ e : ι, (q e * (1 / 8)) * K k e : ℝ) : EReal) := by
  unfold scoreR
  rw [scale_eq]
  have h : (∑ e : ι, (q e * (1 / 8)) * K k e : ℝ) = (∑ e : ι, q e * K k e) * (1 / 8) := by
    rw [Finset.sum_mul]
    exact Finset.sum_congr rfl fun e _ => by ring
  rw [h, EReal.coe_mul, coe_sum]
  simp only [EReal.coe_mul]

/-- The row identity for real scores `s` and real values `v`: one division after the weighted sum against the weights
    normalised first. Every weight `exp (s k - M)` is a positive real, so their sum `l` is a positive real and division by
    it is the product with `1 / l`, which moves inside the finite sum. -/
private theorem row_real [Nonempty κ] (s v : κ → ℝ) :
    Ideal.div (∑ k : κ, Ideal.exp ((s k : EReal) - (Finset.univ : Finset κ).fold max negInf (fun k => (s k : EReal))) * (v k : EReal))
        (∑ k : κ, Ideal.exp ((s k : EReal) - (Finset.univ : Finset κ).fold max negInf (fun k => (s k : EReal))))
      = ∑ k : κ, Ideal.div (Ideal.exp ((s k : EReal) - max negInf ((Finset.univ : Finset κ).fold max negInf (fun k => (s k : EReal)))))
          (zero32 + ∑ k' : κ, Ideal.exp ((s k' : EReal) - max negInf ((Finset.univ : Finset κ).fold max negInf (fun k => (s k : EReal)))))
        * (v k : EReal) := by
  obtain ⟨M, hM⟩ := fold_max_coe s
  rw [hM, zero32_eq, zero_add, negInf_eq, max_bot_left]
  have hw : ∀ k : κ, Ideal.exp ((s k : EReal) - (M : EReal)) = ((Real.exp (s k - M) : ℝ) : EReal) := fun k => by
    rw [← EReal.coe_sub, Ideal.exp_coe]
  simp only [hw]
  have hl : (0 : ℝ) < ∑ k : κ, Real.exp (s k - M) :=
    Finset.sum_pos (fun k _ => Real.exp_pos _) Finset.univ_nonempty
  rw [← coe_sum, Ideal.div_coe hl.ne']
  have hterm : ∀ k : κ, Ideal.div ((Real.exp (s k - M) : ℝ) : EReal) ((∑ k' : κ, Real.exp (s k' - M) : ℝ) : EReal) * (v k : EReal)
      = ((Real.exp (s k - M) * (1 / ∑ k' : κ, Real.exp (s k' - M)) * v k : ℝ) : EReal) := fun k => by
    rw [Ideal.div_coe hl.ne', ← EReal.coe_mul, ← EReal.coe_mul]
  simp only [hterm]
  have hnum : ∀ k : κ, ((Real.exp (s k - M) : ℝ) : EReal) * (v k : EReal) = ((Real.exp (s k - M) * v k : ℝ) : EReal) := fun k =>
    (EReal.coe_mul _ _).symm
  simp only [hnum]
  rw [← coe_sum, ← coe_sum, ← EReal.coe_mul, Finset.sum_mul]
  congr 1
  exact Finset.sum_congr rfl fun k _ => by ring

/-- With real entries the two forms of the row are equal. -/
theorem row_eq [Nonempty κ] (q : ι → EReal) (K : κ → ι → EReal) (V : κ → δ → EReal)
    (hq : ∀ e, ∃ r : ℝ, q e = (r : EReal)) (hK : ∀ k e, ∃ r : ℝ, K k e = (r : EReal))
    (hV : ∀ k d, ∃ r : ℝ, V k d = (r : EReal)) (d : δ) :
    rowK q K V d = rowR q K V d := by
  choose qr hqr using hq
  choose Kr hKr using hK
  choose Vr hVr using hV
  obtain rfl : q = fun e => (qr e : EReal) := funext hqr
  obtain rfl : K = fun k e => (Kr k e : EReal) := funext fun k => funext (hKr k)
  obtain rfl : V = fun k d => (Vr k d : EReal) := funext fun k => funext (hVr k)
  have hK' : scoreK (fun e => (qr e : EReal)) (fun k e => (Kr k e : EReal))
      = fun k => ((∑ e : ι, (qr e * (1 / 8)) * Kr k e : ℝ) : EReal) := funext (scoreK_coe qr Kr)
  have hR' : scoreR (fun e => (qr e : EReal)) (fun k e => (Kr k e : EReal))
      = fun k => ((∑ e : ι, (qr e * (1 / 8)) * Kr k e : ℝ) : EReal) := funext (scoreR_coe qr Kr)
  unfold rowK rowR
  rw [hK', hR']
  exact row_real (fun k => ∑ e : ι, (qr e * (1 / 8)) * Kr k e) (fun k => Vr k d)

end Cert.Attn

end
-- ==== Proof.AttentionArray.lean ====
/-
  The whole result as ONE function of the query array and the two gathered arrays: entry (b, h, s, d) is the attention
  row of query row (b, h, s) against the 512 gathered key rows and value rows of batch b and head h, at column d.
-/
import proofs.«415950_j31825707663464_3_alg».proof.Proof.AttentionRow
import Idealize.ShloMosaic.Lib.ValueIdx

noncomputable section

namespace Cert.Attn

open Idealize.ShloMosaic Idealize.ShloMosaic.ValueIdx

/-- The query's and the result's shape. -/
abbrev SQ : Shape := ⟨4, ![4, 16, 4096, 64]⟩
/-- The gathered keys' and values' shape. -/
abbrev SG : Shape := ⟨4, ![4, 16, 512, 64]⟩

/-- Attention of every query row against its batch's and head's gathered rows. -/
def attn (Q : SQ.Idx → EReal) (Kt Vt : SG.Idx → EReal) : SQ.Idx → EReal := fun i =>
  rowK (fun e : Fin 64 => Q (ix4 (⟨(i 0).val, (i 0).isLt⟩ : Fin 4) (⟨(i 1).val, (i 1).isLt⟩ : Fin 16) (⟨(i 2).val, (i 2).isLt⟩ : Fin 4096) e))
    (fun (k : Fin 512) (e : Fin 64) => Kt (ix4 (⟨(i 0).val, (i 0).isLt⟩ : Fin 4) (⟨(i 1).val, (i 1).isLt⟩ : Fin 16) k e))
    (fun (k : Fin 512) (d : Fin 64) => Vt (ix4 (⟨(i 0).val, (i 0).isLt⟩ : Fin 4) (⟨(i 1).val, (i 1).isLt⟩ : Fin 16) k d))
    (⟨(i 3).val, (i 3).isLt⟩ : Fin 64)

/-- At an index written by coordinates. -/
theorem attn_ix4 (Q : SQ.Idx → EReal) (Kt Vt : SG.Idx → EReal) (b : Fin 4) (h : Fin 16) (s : Fin 4096) (d : Fin 64) :
    attn Q Kt Vt (ix4 b h s d)
      = rowK (fun e : Fin 64 => Q (ix4 b h s e)) (fun (k : Fin 512) (e : Fin 64) => Kt (ix4 b h k e))
          (fun (k : Fin 512) (d' : Fin 64) => Vt (ix4 b h k d')) d := rfl

end Cert.Attn

end
-- ==== Proof.IndexDomain.lean ====
/-
  What the precondition says, entry by entry: each of the three float arrays holds only real numbers (|x| < +∞ on the
  extended reals leaves exactly the reals), and each index of the table lies in [-4096, 4096), the range on which
  indexing an axis of extent 4096 is defined (a negative index counts from the end).
-/
import proofs.«415950_j31825707663464_3_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.Attn

open Idealize.ShloMosaic Cert.Pre_finite_inputs

/-- A rank-0 shape has one index. -/
instance pre_scalar_idx_subsingleton : Subsingleton S_.Idx := ⟨fun a b => funext fun d => d.elim0⟩

/-- A bit made from a boolean is 1 only when the boolean is true. -/
theorem ofBool_eq_one {b : Bool} (h : BitVec.ofBool b = 1#1) : b = true := by
  cases b
  · exact absurd h (by decide)
  · rfl

/-- The f32 pattern 0x7F800000 denotes +∞. -/
theorem ofBits_inf : Ideal.ofBits .f32 0x7F800000#32 = (⊤ : EReal) := by
  simp [Ideal.ofBits, Ideal.ieee]

/-- On the extended reals |x| = max x (-x) is below +∞ exactly when x is a real: at ⊤ the maximum is ⊤, at ⊥ it is
    -⊥ = ⊤. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One element of the printed float test: the compare bit set says the entry is a real. -/
theorem real_of_cmp (x : Ideal .f32)
    (h : FloatOps.cmpf .olt (FloatOps.hostAbsf x) (FloatOps.ofBits (F := Ideal) .f32 0x7F800000#32) = 1#1) :
    ∃ r : ℝ, x = (r : EReal) := by
  apply real_of_abs_lt_top
  change Ideal.cmp .olt (max x (-x)) (Ideal.ofBits .f32 0x7F800000#32) = 1#1 at h
  rw [ofBits_inf] at h
  exact of_decide_eq_true (ofBool_eq_one h)

/-- A signed compare bit, read back: w ≥ -4096. -/
theorem ge_of_cmpi (w : BitVec 32) (h : IntOp.cmpi .sge w 4294963200#32 = 1#1) : -4096 ≤ w.toInt := by
  have h' : (4294963200#32 : BitVec 32).sle w = true := ofBool_eq_one h
  rw [BitVec.sle_iff_toInt_le] at h'
  have e : (4294963200#32 : BitVec 32).toInt = -4096 := by decide
  omega

/-- A signed compare bit, read back: w < 4096. -/
theorem lt_of_cmpi (w : BitVec 32) (h : IntOp.cmpi .slt w 4096#32 = 1#1) : w.toInt < 4096 := by
  have h' : w.slt (4096#32) = true := ofBool_eq_one h
  rw [BitVec.slt_iff_toInt_lt] at h'
  have e : (4096#32 : BitVec 32).toInt = 4096 := by decide
  omega

/-- The precondition, decoded. -/
theorem entries_of_pre (a0 a1 a2 : FVec Ideal S4x16x4096x64 .f32) (a3 : IVec S16x512 32)
    (h : Cert.Pre_finite_inputs.fn (F := Ideal) a0 a1 a2 a3 = fun _ => 1#1) :
    (∀ j, ∃ r : ℝ, a0 j = (r : EReal)) ∧ (∀ j, ∃ r : ℝ, a1 j = (r : EReal)) ∧ (∀ j, ∃ r : ℝ, a2 j = (r : EReal))
      ∧ ∀ p, -4096 ≤ (a3 p).toInt ∧ (a3 p).toInt < 4096 := by
  have h0 := congrFun h ValueIdx.ix0
  dsimp only [Cert.Pre_finite_inputs.fn, Cert.Pre_finite_inputs.fn_part1] at h0
  -- the result is the conjunction of four all-tests
  obtain ⟨h012, h3⟩ := IntOp.andi_eq_one.1 h0
  obtain ⟨h01, h2⟩ := IntOp.andi_eq_one.1 h012
  obtain ⟨h0', h1⟩ := IntOp.andi_eq_one.1 h01
  refine ⟨fun j => ?_, fun j => ?_, fun j => ?_, fun p => ?_⟩
  · exact real_of_cmp (a0 j) (Host.reduce_andi_all _ _ _ _ _ h0' j)
  · exact real_of_cmp (a1 j) (Host.reduce_andi_all _ _ _ _ _ h1 j)
  · exact real_of_cmp (a2 j) (Host.reduce_andi_all _ _ _ _ _ h2 j)
  · obtain ⟨hge, hlt⟩ := IntOp.andi_eq_one.1 (Host.reduce_andi_all _ _ _ _ _ h3 p)
    exact ⟨ge_of_cmpi (a3 p) hge, lt_of_cmpi (a3 p) hlt⟩

end Cert.Attn

end
-- ==== Proof.GatheredRows.lean ====
/-
  The rows gathered along the sequence axis. Both programs take, for every head h and slot k, the row of the key (or
  value) array at position idx[h, k], a negative position counted from the end (idx + 4096), and put a NaN row where the
  position is outside [0, 4095]. With every idx[h, k] in [-4096, 4096) the wrapped position is inside [0, 4095], so the in-range
  mask is set everywhere and every gathered entry is an entry of the source array: a real number when the source's are.
-/
import proofs.«415950_j31825707663464_3_alg».proof.Proof.RefRead
import Idealize.ShloMosaic.PureOps.Ideal
import Idealize.ShloMosaic.Lib.ValueIdx
import Idealize.ShloMosaic.Lib.StableHlo.Predicate

noncomputable section

namespace Cert.Attn

open Idealize.ShloMosaic Cert.ReferenceIdeal Cert.ReferenceIdeal.Gen

/-- A bit made from a true boolean is 1. -/
theorem ofBool_one {b : Bool} (h : b = true) : BitVec.ofBool b = 1#1 := by subst h; rfl

/-- A bit made from a false boolean is 0. -/
theorem ofBool_zero {b : Bool} (h : b = false) : BitVec.ofBool b = 0#1 := by subst h; rfl

/-- A left fold by and, started at 1 over bits that are all 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have e : IntOp.andi 1#1 (f a) = 1#1 := by rw [ha]; rfl
    rw [List.foldl_cons, e]
    exact foldl_andi_one f l fun n hn => h n (List.mem_cons_of_mem _ hn)

/-- A reduction by and, from the initial bit 1, of an array whose bits are all 1 is 1 at every index. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  unfold Host.reduce
  rw [hinit]
  exact foldl_andi_one (fun n => x (s.rowMajor.symm n)) _ fun n _ => hx _

/-- A position w in [-4096, 4096), counted from the end when negative (w + 4096), lands in [0, 4095]: both bound tests
    of the wrapped position are set. -/
theorem wrap_in_range (w : BitVec 32) (h1 : -4096 ≤ w.toInt) (h2 : w.toInt < 4096) :
    IntOp.andi
      (IntOp.cmpi .sge (Scalar.select (IntOp.cmpi .slt w 0#32) (IntOp.addi w 4096#32) w) 0#32)
      (IntOp.cmpi .sle (Scalar.select (IntOp.cmpi .slt w 0#32) (IntOp.addi w 4096#32) w) 4095#32) = 1#1 := by
  have e0 : (0#32 : BitVec 32).toInt = 0 := by decide
  have e1 : (4095#32 : BitVec 32).toInt = 4095 := by decide
  have e2 : (4096#32 : BitVec 32).toInt = 4096 := by decide
  by_cases hneg : w.toInt < 0
  · have hs : IntOp.cmpi .slt w 0#32 = 1#1 := ofBool_one (by rw [BitVec.slt_iff_toInt_lt, e0]; exact hneg)
    have ea : (IntOp.addi w 4096#32).toInt = w.toInt + 4096 := by
      show (w + 4096#32).toInt = w.toInt + 4096
      rw [BitVec.toInt_add, e2]
      have e32 : ((2 ^ 32 : Nat) : Int) = 4294967296 := by norm_num
      rw [Int.bmod_def, e32]
      split <;> omega
    rw [hs, ValueIdx.select_one]
    refine IntOp.andi_eq_one.2 ⟨ofBool_one ?_, ofBool_one ?_⟩
    · rw [BitVec.sle_iff_toInt_le, e0, ea]; omega
    · rw [BitVec.sle_iff_toInt_le, e1, ea]; omega
  · have hs : IntOp.cmpi .slt w 0#32 = 0#1 :=
      ofBool_zero (by rw [← Bool.not_eq_true, BitVec.slt_iff_toInt_lt, e0]; exact hneg)
    rw [hs, ValueIdx.select_zero]
    refine IntOp.andi_eq_one.2 ⟨ofBool_one ?_, ofBool_one ?_⟩
    · rw [BitVec.sle_iff_toInt_le, e0]; omega
    · rw [BitVec.sle_iff_toInt_le, e1]; omega

/-- With every table entry in [-4096, 4096) the in-range mask of the first gather is set at every (head, slot). -/
theorem mask0_one (x3 : (⟨S16x512, .i32⟩ : BufTy).Contents (Elt Ideal)) (h3 : ∀ p, -4096 ≤ (x3 p).toInt ∧ (x3 p).toInt < 4096)
    (p : S16x512.Idx) : ReadP.val_main_call0_v12 (F := Ideal) x3 p = 1#1 := by
  unfold ReadP.val_main_call0_v12
  refine reduce_andi_one _ _ _ _ rfl (fun q => ?_) p
  rw [ReadP.val_main_call0_v11_apply, ReadP.val_main_call0_v7_apply, ReadP.val_main_call0_v10_apply,
    ReadP.val_main_call0_v6_apply, ReadP.val_main_call0_c_2_apply, ReadP.val_main_call0_v9_apply,
    ReadP.val_main_call0_v8_apply, ReadP.val_main_call0_c_1_apply, ReadP.val_main_call0_v5_apply,
    ReadP.val_main_call0_v4_apply, ReadP.val_main_call0_v1_apply, ReadP.val_main_call0_v3_apply,
    ReadP.val_main_call0_v0_apply, ReadP.val_main_call0_c_apply, ReadP.val_main_call0_v2_apply,
    ReadP.val_main_call0_c_0_apply, ReadP.val_main_v0_apply]
  exact wrap_in_range _ (h3 _).1 (h3 _).2

/-- The second gather is the first one's function of its arguments (the two calls of the same routine). -/
theorem v3_eq_v1 (x : (⟨S4x16x4096x64, .f32⟩ : BufTy).Contents (Elt Ideal)) (x3 : (⟨S16x512, .i32⟩ : BufTy).Contents (Elt Ideal)) :
    ReadP.val_main_v3 (F := Ideal) x x3 = ReadP.val_main_v1 (F := Ideal) x x3 := rfl

/-- Gathered key rows are real. -/
theorem gatheredK_real (x : (⟨S4x16x4096x64, .f32⟩ : BufTy).Contents (Elt Ideal)) (x3 : (⟨S16x512, .i32⟩ : BufTy).Contents (Elt Ideal))
    (hx : ∀ j, ∃ r : ℝ, x j = (r : EReal)) (h3 : ∀ p, -4096 ≤ (x3 p).toInt ∧ (x3 p).toInt < 4096) (i : S4x16x512x64.Idx) :
    ∃ r : ℝ, Cert.ReferenceIdeal.ReadP.val_main_v1 (F := Ideal) x x3 i = (r : EReal) := by
  rw [ReadP.val_main_v1_apply, ReadP.val_main_call0_v14_apply, mask0_one x3 h3, ValueIdx.select_one]
  exact hx _

/-- Gathered value rows are real. -/
theorem gatheredV_real (x : (⟨S4x16x4096x64, .f32⟩ : BufTy).Contents (Elt Ideal)) (x3 : (⟨S16x512, .i32⟩ : BufTy).Contents (Elt Ideal))
    (hx : ∀ j, ∃ r : ℝ, x j = (r : EReal)) (h3 : ∀ p, -4096 ≤ (x3 p).toInt ∧ (x3 p).toInt < 4096) (i : S4x16x512x64.Idx) :
    ∃ r : ℝ, Cert.ReferenceIdeal.ReadP.val_main_v3 (F := Ideal) x x3 i = (r : EReal) := by
  rw [v3_eq_v1]
  exact gatheredK_real x x3 hx h3 i

end Cert.Attn

end
-- ==== Proof.LibColumns.lean ====
/- Three readings of layout operations at an index written by coordinates, at any extents and any element type:
   a one-column matrix broadcast along its rows; a column of a [1, a, b] block after its unit axis is dropped; a row of the
   transpose of such a block. Each composes the library's one-operation readings (a slice along one axis, a transpose, a
   dropped leading unit axis, a broadcast) for the shape a kernel body meets when it splits a block of 3-vectors
   into its coordinate columns (or, transposed, its coordinate rows) and broadcasts them against each other. -/
import Idealize.ShloMosaic.Lib.Pipeline.Value
import Idealize.ShloMosaic.Lib.ValueIdx
import Idealize.ShloMosaic.Lib.ValueLayout

namespace Cert.LibColumns

open Idealize.ShloMosaic Idealize.ShloMosaic.ValueIdx

/-- A one-column matrix [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of a [1, a, b] block, taken (as the slice at column offset o = k) after the unit axis is dropped, reads at
    row r the block's entry (0, r, k). -/
theorem column_apply {α : Type} {a b : ℕ} (o : ℕ) (x : (⟨3, ![1, a, b]⟩ : Shape).Idx → α)
    (hc : (⟨3, ![1, a, b]⟩ : Shape).ShapeCasts ⟨2, ![a, b]⟩) (hs : (⟨2, ![a, b]⟩ : Shape).Slices ![0, o] ⟨2, ![a, 1]⟩)
    (r : Fin a) (k : Fin b) (hk : k.val = o) :
    extractStridedSlice ⟨2, ![a, 1]⟩ ![0, o] (shapeCast ⟨2, ![a, b]⟩ x hc) hs (ix2 r (0 : Fin 1)) = x (ix3 (0 : Fin 1) r k) :=
  (slice2_axis1_apply o _ hs r (0 : Fin 1) k (by rw [hk]; rfl)).trans (shapeCast_1ab_ab_apply x hc r k)

/-- Row k of the transpose of a [1, a, b] block (the unit axis dropped first; the slice at row offset o = k) reads at
    column q the block's entry (0, q, k). -/
theorem transposed_row_apply {α : Type} {a b : ℕ} (o : ℕ) (x : (⟨3, ![1, a, b]⟩ : Shape).Idx → α)
    (hc : (⟨3, ![1, a, b]⟩ : Shape).ShapeCasts ⟨2, ![a, b]⟩) (ht : (⟨2, ![a, b]⟩ : Shape).Transposes [1, 0] ⟨2, ![b, a]⟩)
    (hs : (⟨2, ![b, a]⟩ : Shape).Slices ![o, 0] ⟨2, ![1, a]⟩) (q : Fin a) (k : Fin b) (hk : k.val = o) :
    extractStridedSlice ⟨2, ![1, a]⟩ ![o, 0] (transpose ⟨2, ![b, a]⟩ [1, 0] (shapeCast ⟨2, ![a, b]⟩ x hc) ht) hs (ix2 (0 : Fin 1) q)
      = x (ix3 (0 : Fin 1) q k) :=
  (slice2_axis0_apply o _ hs (0 : Fin 1) q k (by rw [hk]; rfl)).trans
    ((transpose_ix2_apply _ ht k q).trans (shapeCast_1ab_ab_apply x hc q k))

end Cert.LibColumns
-- ==== Proof.LibUnitAxes.lean ====
/- Shape casts that only add or drop unit axes, read at an index written by coordinates, at any extents and any element
   type: a [1, 1, a, b] block cast to the matrix [a, b] and back, and a vector [a] cast to the one-column matrix [a, 1].
   A cast keeps the row-major position of every entry, and a unit axis contributes the factor 1 and the coordinate 0
   to that position, so each reading is one line of arithmetic on the row-major positions. -/
import Idealize.ShloMosaic.Lib.Pipeline.Value
import Idealize.ShloMosaic.Lib.ValueIdx
import Idealize.ShloMosaic.Lib.ValueLayout

namespace Cert.LibUnitAxes

open Idealize.ShloMosaic Idealize.ShloMosaic.ValueIdx

variable {α : Type}

/-- A [1, 1, a, b] block cast to [a, b] reads, at (i, j), the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to [1, 1, a, b] reads, at (u, v, i, j), the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the one-column matrix [a, 1] reads, at (i, u), the vector's entry i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitAxes
-- ==== Proof.KernelRow.lean ====
/-
  What one grid point of the kernel stores, entry by entry. At a point the body holds the query block x0 (one batch and
  head: 4096 rows of 64), the gathered key block x1 and the gathered value block x2 (512 rows of 64 each). It scales the
  query by 2⁻³, multiplies by the keys' transpose into the 4096 × 512 scores, takes each row's maximum, exponentiates the
  differences into the weights, sums each row of weights, multiplies the weights by the values, and divides each row of
  that product by the row's weight sum. Read at row s and column d this is the attention row `rowK` of query row s: the
  lemmas below read each of these matrices at an index, one operation at a time.
-/
import proofs.«415950_j31825707663464_3_alg».proof.Proof.Gen.KernelIdeal.Skeleton
import proofs.«415950_j31825707663464_3_alg».proof.Proof.AttentionRow
import proofs.«415950_j31825707663464_3_alg».proof.Proof.LibColumns
import proofs.«415950_j31825707663464_3_alg».proof.Proof.LibUnitAxes
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.Attn
open Cert.LibColumns Cert.LibUnitAxes

variable (x0 : FVec Ideal S1x1x4096x64 .f32) (x1 x2 : FVec Ideal S1x1x512x64 .bf16)

/-! ## The body's matrices -/

/-- The query block as a 4096 × 64 matrix, scaled by 2⁻³. -/
def scaledQuery : FVec Ideal S4096x64 .bf16 :=
  truncf .bf16 (mulf (shapeCast S4096x64 x0 shapeCasts_S1x1x4096x64_S4096x64) (broadcast S4096x64 (Scalar.ofBits .f32 0x3E000000#32))) bitsLt_bf16_f32

/-- The scores: scaled query times the keys' transpose. -/
def scores : FVec Ideal S4096x512 .f32 :=
  matmul dot_S4096x64_S512x64_S4096x512_1_1_0_0_n_n none (scaledQuery x0) (shapeCast S512x64 x1 shapeCasts_S1x1x512x64_S512x64) (constant S4096x512 .f32 0x00000000#32)

/-- Each row's largest score. -/
def rowMax : FVec Ideal S4096 .f32 :=
  multiReduction .maximumf [1] S4096 (scores x0 x1) 0xFF800000#32 reduces_S4096x512_S4096 (.inl rfl) rfl

/-- The weights exp (score − row maximum). -/
def weights : FVec Ideal S4096x512 .f32 :=
  exp (subf (scores x0 x1) (broadcastTo S4096x512 (shapeCast S4096x1 (rowMax x0 x1) shapeCasts_S4096_S4096x1) broadcasts_S4096x1_S4096x512))

/-- Each row's sum of weights. -/
def rowSum : FVec Ideal S4096 .f32 :=
  multiReduction .add [1] S4096 (weights x0 x1) 0x00000000#32 reduces_S4096x512_S4096 (.inl rfl) rfl

/-- The weights times the values. -/
def weighted : FVec Ideal S4096x64 .f32 :=
  matmul dot_S4096x512_S512x64_S4096x64_1_0_0_1_n_n none (truncf .bf16 (weights x0 x1) bitsLt_bf16_f32) (shapeCast S512x64 x2 shapeCasts_S1x1x512x64_S512x64) (constant S4096x64 .f32 0x00000000#32)

/-- The stored value is the weighted sum divided row by row by the weight sum, laid back out as a [1, 1, 4096, 64] block. -/
theorem pay_eq : k0_pay1 (F := Ideal) x0 x1 x2
    = shapeCast S1x1x4096x64 (divf (weighted x0 x1 x2) (broadcastTo S4096x64 (shapeCast S4096x1 (rowSum x0 x1) shapeCasts_S4096_S4096x1) broadcasts_S4096x1_S4096x64)) shapeCasts_S4096x64_S1x1x4096x64 := rfl

/-! ## Where each product reads its operands -/

theorem lhs_scores_0 (i : S4096x512.Idx) (q : dot_S4096x64_S512x64_S4096x512_1_1_0_0_n_n.contr.Idx) :
    (dot_S4096x64_S512x64_S4096x512_1_1_0_0_n_n.lhsIdx i q 0).val = (i 0).val := by
  unfold DotDims.lhsIdx
  rw [dif_neg (show ¬(0 : Fin S4096x64.rank) ∈ dot_S4096x64_S512x64_S4096x512_1_1_0_0_n_n.lhsBatch by decide), dif_pos (show (0 : Fin S4096x64.rank) ∈ dot_S4096x64_S512x64_S4096x512_1_1_0_0_n_n.lhsNonContracting by decide)]
  rfl
theorem lhs_scores_1 (i : S4096x512.Idx) (q : dot_S4096x64_S512x64_S4096x512_1_1_0_0_n_n.contr.Idx) :
    (dot_S4096x64_S512x64_S4096x512_1_1_0_0_n_n.lhsIdx i q 1).val = (q ⟨0, by decide⟩).val :=
  dot_S4096x64_S512x64_S4096x512_1_1_0_0_n_n.lhsIdx_val_of_single rfl i q
theorem rhs_scores_0 (i : S4096x512.Idx) (q : dot_S4096x64_S512x64_S4096x512_1_1_0_0_n_n.contr.Idx) :
    (dot_S4096x64_S512x64_S4096x512_1_1_0_0_n_n.rhsIdx i q 0).val = (i 1).val := by
  unfold DotDims.rhsIdx
  rw [dif_neg (show ¬(0 : Fin S512x64.rank) ∈ dot_S4096x64_S512x64_S4096x512_1_1_0_0_n_n.rhsBatch by decide), dif_pos (show (0 : Fin S512x64.rank) ∈ dot_S4096x64_S512x64_S4096x512_1_1_0_0_n_n.rhsNonContracting by decide)]
  rfl
theorem rhs_scores_1 (i : S4096x512.Idx) (q : dot_S4096x64_S512x64_S4096x512_1_1_0_0_n_n.contr.Idx) :
    (dot_S4096x64_S512x64_S4096x512_1_1_0_0_n_n.rhsIdx i q 1).val = (q ⟨0, by decide⟩).val :=
  dot_S4096x64_S512x64_S4096x512_1_1_0_0_n_n.rhsIdx_val_of_single rfl i q

theorem lhs_weighted_0 (i : S4096x64.Idx) (q : dot_S4096x512_S512x64_S4096x64_1_0_0_1_n_n.contr.Idx) :
    (dot_S4096x512_S512x64_S4096x64_1_0_0_1_n_n.lhsIdx i q 0).val = (i 0).val := by
  unfold DotDims.lhsIdx
  rw [dif_neg (show ¬(0 : Fin S4096x512.rank) ∈ dot_S4096x512_S512x64_S4096x64_1_0_0_1_n_n.lhsBatch by decide), dif_pos (show (0 : Fin S4096x512.rank) ∈ dot_S4096x512_S512x64_S4096x64_1_0_0_1_n_n.lhsNonContracting by decide)]
  rfl
theorem lhs_weighted_1 (i : S4096x64.Idx) (q : dot_S4096x512_S512x64_S4096x64_1_0_0_1_n_n.contr.Idx) :
    (dot_S4096x512_S512x64_S4096x64_1_0_0_1_n_n.lhsIdx i q 1).val = (q ⟨0, by decide⟩).val :=
  dot_S4096x512_S512x64_S4096x64_1_0_0_1_n_n.lhsIdx_val_of_single rfl i q
theorem rhs_weighted_0 (i : S4096x64.Idx) (q : dot_S4096x512_S512x64_S4096x64_1_0_0_1_n_n.contr.Idx) :
    (dot_S4096x512_S512x64_S4096x64_1_0_0_1_n_n.rhsIdx i q 0).val = (q ⟨0, by decide⟩).val :=
  dot_S4096x512_S512x64_S4096x64_1_0_0_1_n_n.rhsIdx_val_of_single rfl i q
theorem rhs_weighted_1 (i : S4096x64.Idx) (q : dot_S4096x512_S512x64_S4096x64_1_0_0_1_n_n.contr.Idx) :
    (dot_S4096x512_S512x64_S4096x64_1_0_0_1_n_n.rhsIdx i q 1).val = (i 1).val := by
  unfold DotDims.rhsIdx
  rw [dif_neg (show ¬(1 : Fin S512x64.rank) ∈ dot_S4096x512_S512x64_S4096x64_1_0_0_1_n_n.rhsBatch by decide), dif_pos (show (1 : Fin S512x64.rank) ∈ dot_S4096x512_S512x64_S4096x64_1_0_0_1_n_n.rhsNonContracting by decide)]
  rfl

/-- A row index of the score matrix with the column put back. -/
theorem lift_eq (s : Fin 4096) (k : Fin 512) : reduces_S4096x512_S4096.lift (ix1 s) k = ix2 s k :=
  funext fun a => Fin.ext (by match a with | ⟨0, _⟩ => rfl | ⟨1, _⟩ => rfl)

/-! ## The matrices at an index -/

theorem scaledQuery_apply (s : Fin 4096) (e : Fin 64) :
    scaledQuery x0 (ix2 s e) = x0 (ix4 (0 : Fin 1) (0 : Fin 1) s e) * scale :=
  congrArg (· * scale) (shapeCast_11ab_ab_apply x0 shapeCasts_S1x1x4096x64_S4096x64 s e)

theorem scores_apply (s : Fin 4096) (k : Fin 512) :
    scores x0 x1 (ix2 s k)
      = scoreK (fun e : Fin 64 => x0 (ix4 (0 : Fin 1) (0 : Fin 1) s e)) (fun (k : Fin 512) (e : Fin 64) => x1 (ix4 (0 : Fin 1) (0 : Fin 1) k e)) k := by
  unfold scores scoreK
  refine (Ideal.matmul_constant_zero_apply _ none _ _ (ix2 s k)).trans ?_
  rw [← Equiv.sum_comp (contrEquiv1 dot_S4096x64_S512x64_S4096x512_1_1_0_0_n_n 64 rfl rfl).symm]
  refine Finset.sum_congr rfl fun e _ => ?_
  have hk := contrEquiv1_symm_val dot_S4096x64_S512x64_S4096x512_1_1_0_0_n_n 64 rfl rfl e
  have el : dot_S4096x64_S512x64_S4096x512_1_1_0_0_n_n.lhsIdx (ix2 s k) ((contrEquiv1 dot_S4096x64_S512x64_S4096x512_1_1_0_0_n_n 64 rfl rfl).symm e) = ix2 s e := funext fun a => Fin.ext (by
    match a with
    | ⟨0, _⟩ => exact lhs_scores_0 _ _
    | ⟨1, _⟩ => exact (lhs_scores_1 _ _).trans hk)
  have er : dot_S4096x64_S512x64_S4096x512_1_1_0_0_n_n.rhsIdx (ix2 s k) ((contrEquiv1 dot_S4096x64_S512x64_S4096x512_1_1_0_0_n_n 64 rfl rfl).symm e) = ix2 k e := funext fun a => Fin.ext (by
    match a with
    | ⟨0, _⟩ => exact rhs_scores_0 _ _
    | ⟨1, _⟩ => exact (rhs_scores_1 _ _).trans hk)
  rw [el, er, scaledQuery_apply]
  exact congrArg _ (shapeCast_11ab_ab_apply x1 shapeCasts_S1x1x512x64_S512x64 k e)

theorem rowMax_apply (s : Fin 4096) :
    rowMax x0 x1 (ix1 s) = (Finset.univ : Finset (Fin 512)).fold max negInf (fun k => scores x0 x1 (ix2 s k)) := by
  unfold rowMax
  refine (Ideal.multiReduction_maximumf_single (scores x0 x1) 0xFF800000#32 reduces_S4096x512_S4096 (.inl rfl) rfl (ix1 s)).trans ?_
  exact congrArg ((Finset.univ : Finset (Fin 512)).fold max negInf) (funext fun k => congrArg (scores x0 x1) (lift_eq s k))

theorem weights_apply (s : Fin 4096) (k : Fin 512) :
    weights x0 x1 (ix2 s k) = Ideal.exp (scores x0 x1 (ix2 s k) - rowMax x0 x1 (ix1 s)) := by
  unfold weights
  show Ideal.exp (scores x0 x1 (ix2 s k)
    - broadcastTo S4096x512 (shapeCast S4096x1 (rowMax x0 x1) shapeCasts_S4096_S4096x1) broadcasts_S4096x1_S4096x512 (ix2 s k)) = _
  rw [broadcastTo_a1_ab_apply, shapeCast_a_a1_apply]

theorem rowSum_apply (s : Fin 4096) :
    rowSum x0 x1 (ix1 s) = ∑ k : Fin 512, weights x0 x1 (ix2 s k) := by
  unfold rowSum
  refine (Ideal.multiReduction_add_single (weights x0 x1) 0x00000000#32 reduces_S4096x512_S4096 (.inl rfl) rfl (ix1 s)).trans ?_
  exact Finset.sum_congr rfl fun k _ => congrArg (weights x0 x1) (lift_eq s k)

theorem weighted_apply (s : Fin 4096) (d : Fin 64) :
    weighted x0 x1 x2 (ix2 s d) = ∑ k : Fin 512, weights x0 x1 (ix2 s k) * x2 (ix4 (0 : Fin 1) (0 : Fin 1) k d) := by
  unfold weighted
  refine (Ideal.matmul_constant_zero_apply _ none _ _ (ix2 s d)).trans ?_
  rw [← Equiv.sum_comp (contrEquiv1 dot_S4096x512_S512x64_S4096x64_1_0_0_1_n_n 512 rfl rfl).symm]
  refine Finset.sum_congr rfl fun k _ => ?_
  have hk := contrEquiv1_symm_val dot_S4096x512_S512x64_S4096x64_1_0_0_1_n_n 512 rfl rfl k
  have el : dot_S4096x512_S512x64_S4096x64_1_0_0_1_n_n.lhsIdx (ix2 s d) ((contrEquiv1 dot_S4096x512_S512x64_S4096x64_1_0_0_1_n_n 512 rfl rfl).symm k) = ix2 s k := funext fun a => Fin.ext (by
    match a with
    | ⟨0, _⟩ => exact lhs_weighted_0 _ _
    | ⟨1, _⟩ => exact (lhs_weighted_1 _ _).trans hk)
  have er : dot_S4096x512_S512x64_S4096x64_1_0_0_1_n_n.rhsIdx (ix2 s d) ((contrEquiv1 dot_S4096x512_S512x64_S4096x64_1_0_0_1_n_n 512 rfl rfl).symm k) = ix2 k d := funext fun a => Fin.ext (by
    match a with
    | ⟨0, _⟩ => exact (rhs_weighted_0 _ _).trans hk
    | ⟨1, _⟩ => exact rhs_weighted_1 _ _)
  rw [el, er]
  exact congrArg (weights x0 x1 (ix2 s k) * ·) (shapeCast_11ab_ab_apply x2 shapeCasts_S1x1x512x64_S512x64 k d)

/-- The stored block at (0, 0, s, d) is the attention row of query row s, at column d. -/
theorem pay_apply (s : Fin 4096) (d : Fin 64) :
    k0_pay1 (F := Ideal) x0 x1 x2 (ix4 (0 : Fin 1) (0 : Fin 1) s d)
      = rowK (fun e : Fin 64 => x0 (ix4 (0 : Fin 1) (0 : Fin 1) s e)) (fun (k : Fin 512) (e : Fin 64) => x1 (ix4 (0 : Fin 1) (0 : Fin 1) k e))
          (fun (k : Fin 512) (d' : Fin 64) => x2 (ix4 (0 : Fin 1) (0 : Fin 1) k d')) d := by
  rw [pay_eq, shapeCast_ab_11ab_apply]
  show Ideal.div (weighted x0 x1 x2 (ix2 s d))
    (broadcastTo S4096x64 (shapeCast S4096x1 (rowSum x0 x1) shapeCasts_S4096_S4096x1) broadcasts_S4096x1_S4096x64 (ix2 s d)) = _
  rw [broadcastTo_a1_ab_apply, shapeCast_a_a1_apply, weighted_apply, rowSum_apply]
  unfold rowK
  simp only [weights_apply, rowMax_apply, scores_apply]

end Cert.KernelIdeal.Row

end
-- ==== Proof.KernelArray.lean ====
/-
  From the grid's blocks to the whole result array. The grid has one point per (batch, head) pair; at point t every
  window's block index is (b, h, 0, 0) with (b, h) the point's coordinates, so the query block is rows (b, h, ·, ·) of the
  query, the key and value blocks rows (b, h, ·, ·) of the gathered arrays, and the block written back is rows (b, h, ·, ·)
  of the result. By the reading of the body (`Row.pay_apply`) the block written back at t is therefore block t of the one
  function `attn` of the arrays the region finds; the 64 blocks cover the result, so the result array after the run IS
  `attn` of them. The arrays the region finds are the query as launched and, for the keys and values, what the host
  operations before the region computed: the rows gathered along the sequence axis (the change of format that follows
  the gather is the identity on the extended reals).
-/
import proofs.«415950_j31825707663464_3_alg».proof.Proof.Gen.KernelIdeal.Value
import proofs.«415950_j31825707663464_3_alg».proof.Proof.KernelRow
import proofs.«415950_j31825707663464_3_alg».proof.Proof.AttentionArray
import proofs.«415950_j31825707663464_3_alg».proof.Proof.RefRead
import Idealize.ShloMosaic.Lib.Pipeline.Value
import Idealize.ShloMosaic.Lib.StableHlo.Run
import Idealize.ShloMosaic.Lib.ValueIdx

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- The printed index maps, decided over the 64 grid points: every window's block index is the output's on the batch and
    head axes and 0 on the other two, and the output's stays inside 4 × 16. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (0 : Fin 4) < 4 ∧ win0_3.index t (1 : Fin 4) < 16
    ∧ win0_3.index t (2 : Fin 4) = 0 ∧ win0_3.index t (3 : Fin 4) = 0 :=
  (by decide +kernel : ∀ t : Fin grid0.N, _)

/-- Every (batch, head) pair is some point's. -/
theorem idx_onto : ∀ (b : Fin 4) (h : Fin 16), ∃ t : Fin cfg0.N, win0_3.index t = ![b.val, h.val, 0, 0] :=
  (by decide +kernel : ∀ (b : Fin 4) (h : Fin 16), ∃ t : Fin grid0.N, win0_3.index t = ![b.val, h.val, 0, 0])

/-- The batch a point works on. -/
def batchOf (t : Fin cfg0.N) : Fin 4 := ⟨win0_3.index t (0 : Fin 4), (idx_facts t).2.2.2.2.2.2.2.2.2.2.2.2.1⟩
/-- The head a point works on. -/
def headOf (t : Fin cfg0.N) : Fin 16 := ⟨win0_3.index t (1 : Fin 4), (idx_facts t).2.2.2.2.2.2.2.2.2.2.2.2.2.1⟩

/-! ## Each block as rows of its array -/

/-- The query block at point t is rows (b, h, ·, ·) of the query array. -/
theorem query_read (c : Dev nD) (t : Fin cfg0.N) (s : Fin 4096) (e : Fin 64) :
    (iblk m c 0 t : FVec Ideal S1x1x4096x64 .f32) (ix4 (0 : Fin 1) (0 : Fin 1) s e)
      = (V m c main_arg0 : S4x16x4096x64.Idx → EReal) (ix4 (batchOf t) (headOf t) s e) := by
  obtain ⟨e0, e1, e2, e3, -⟩ := idx_facts t
  unfold iblk
  rw [View.read_apply]
  show (V m c main_arg0 : S4x16x4096x64.Idx → EReal) _ = _
  refine congrArg (V m c main_arg0 : S4x16x4096x64.Idx → EReal) ?_
  funext a
  apply Fin.ext
  match a with
  | ⟨0, _⟩ => show win0_0.index t (0 : Fin 4) * 1 + 1 * 0 = win0_3.index t (0 : Fin 4); omega
  | ⟨1, _⟩ => show win0_0.index t (1 : Fin 4) * 1 + 1 * 0 = win0_3.index t (1 : Fin 4); omega
  | ⟨2, _⟩ => show win0_0.index t (2 : Fin 4) * 4096 + 1 * s.val = s.val; omega
  | ⟨3, _⟩ => show win0_0.index t (3 : Fin 4) * 64 + 1 * e.val = e.val; omega

/-- The key block at point t is rows (b, h, ·, ·) of the gathered keys. -/
theorem keys_read (c : Dev nD) (t : Fin cfg0.N) (k : Fin 512) (e : Fin 64) :
    (iblk m c 1 t : FVec Ideal S1x1x512x64 .bf16) (ix4 (0 : Fin 1) (0 : Fin 1) k e)
      = (V m c main_v2 : S4x16x512x64.Idx → EReal) (ix4 (batchOf t) (headOf t) k e) := by
  obtain ⟨-, -, -, -, e0, e1, e2, e3, -⟩ := idx_facts t
  unfold iblk
  rw [View.read_apply]
  show (V m c main_v2 : S4x16x512x64.Idx → EReal) _ = _
  refine congrArg (V m c main_v2 : S4x16x512x64.Idx → EReal) ?_
  funext a
  apply Fin.ext
  match a with
  | ⟨0, _⟩ => show win0_1.index t (0 : Fin 4) * 1 + 1 * 0 = win0_3.index t (0 : Fin 4); omega
  | ⟨1, _⟩ => show win0_1.index t (1 : Fin 4) * 1 + 1 * 0 = win0_3.index t (1 : Fin 4); omega
  | ⟨2, _⟩ => show win0_1.index t (2 : Fin 4) * 512 + 1 * k.val = k.val; omega
  | ⟨3, _⟩ => show win0_1.index t (3 : Fin 4) * 64 + 1 * e.val = e.val; omega

/-- The value block at point t is rows (b, h, ·, ·) of the gathered values. -/
theorem values_read (c : Dev nD) (t : Fin cfg0.N) (k : Fin 512) (d : Fin 64) :
    (iblk m c 2 t : FVec Ideal S1x1x512x64 .bf16) (ix4 (0 : Fin 1) (0 : Fin 1) k d)
      = (V m c main_v4 : S4x16x512x64.Idx → EReal) (ix4 (batchOf t) (headOf t) k d) := by
  obtain ⟨-, -, -, -, -, -, -, -, e0, e1, e2, e3, -⟩ := idx_facts t
  unfold iblk
  rw [View.read_apply]
  show (V m c main_v4 : S4x16x512x64.Idx → EReal) _ = _
  refine congrArg (V m c main_v4 : S4x16x512x64.Idx → EReal) ?_
  funext a
  apply Fin.ext
  match a with
  | ⟨0, _⟩ => show win0_2.index t (0 : Fin 4) * 1 + 1 * 0 = win0_3.index t (0 : Fin 4); omega
  | ⟨1, _⟩ => show win0_2.index t (1 : Fin 4) * 1 + 1 * 0 = win0_3.index t (1 : Fin 4); omega
  | ⟨2, _⟩ => show win0_2.index t (2 : Fin 4) * 512 + 1 * k.val = k.val; omega
  | ⟨3, _⟩ => show win0_2.index t (3 : Fin 4) * 64 + 1 * d.val = d.val; omega

/-- Entry (0, 0, s, d) of the output block at point t sits at (b, h, s, d) of the result. -/
theorem out_emb (t : Fin cfg0.N) (s : Fin 4096) (d : Fin 64) :
    (((cfg0.win 3).blk t).view.emb (ix4 (0 : Fin 1) (0 : Fin 1) s d) : S4x16x4096x64.Idx) = ix4 (batchOf t) (headOf t) s d := by
  obtain ⟨-, -, -, -, -, -, -, -, -, -, -, -, -, -, e2, e3⟩ := idx_facts t
  funext a
  apply Fin.ext
  match a with
  | ⟨0, _⟩ => show win0_3.index t (0 : Fin 4) * 1 + 1 * 0 = win0_3.index t (0 : Fin 4); omega
  | ⟨1, _⟩ => show win0_3.index t (1 : Fin 4) * 1 + 1 * 0 = win0_3.index t (1 : Fin 4); omega
  | ⟨2, _⟩ => show win0_3.index t (2 : Fin 4) * 4096 + 1 * s.val = s.val; omega
  | ⟨3, _⟩ => show win0_3.index t (3 : Fin 4) * 64 + 1 * d.val = d.val; omega

/-! ## What a point writes back, the cover, the array -/

/-- The body's value at entry (0, 0, s, d) of point t's block is `attn` of the arrays the region finds, at (b, h, s, d). -/
theorem payload_at (c : Dev nD) (t : Fin cfg0.N) (s : Fin 4096) (d : Fin 64) :
    k0_pay1 (F := Ideal) (iblk m c 0 t) (iblk m c 1 t) (iblk m c 2 t) (ix4 (0 : Fin 1) (0 : Fin 1) s d)
      = attn (V m c main_arg0) (V m c main_v2) (V m c main_v4) (ix4 (batchOf t) (headOf t) s d) := by
  refine (Cert.KernelIdeal.Row.pay_apply (iblk m c 0 t) (iblk m c 1 t) (iblk m c 2 t) s d).trans ?_
  rw [attn_ix4]
  have hq : (fun e : Fin 64 => (iblk m c 0 t : FVec Ideal S1x1x4096x64 .f32) (ix4 (0 : Fin 1) (0 : Fin 1) s e))
      = fun e : Fin 64 => (V m c main_arg0 : S4x16x4096x64.Idx → EReal) (ix4 (batchOf t) (headOf t) s e) :=
    funext fun e => query_read m c t s e
  have hk : (fun (k : Fin 512) (e : Fin 64) => (iblk m c 1 t : FVec Ideal S1x1x512x64 .bf16) (ix4 (0 : Fin 1) (0 : Fin 1) k e))
      = fun (k : Fin 512) (e : Fin 64) => (V m c main_v2 : S4x16x512x64.Idx → EReal) (ix4 (batchOf t) (headOf t) k e) :=
    funext fun k => funext fun e => keys_read m c t k e
  have hv : (fun (k : Fin 512) (d' : Fin 64) => (iblk m c 2 t : FVec Ideal S1x1x512x64 .bf16) (ix4 (0 : Fin 1) (0 : Fin 1) k d'))
      = fun (k : Fin 512) (d' : Fin 64) => (V m c main_v4 : S4x16x512x64.Idx → EReal) (ix4 (batchOf t) (headOf t) k d') :=
    funext fun k => funext fun d' => values_read m c t k d'
  rw [hq, hk, hv]

/-- What point t writes back is block t of `attn` of the arrays the region finds. -/
theorem flushed_eq (c : Dev nD) (t : Fin cfg0.N) :
    (dats m 0 c).flushed 3 t
      = ((cfg0.win 3).blk t).view.read (Elt Ideal) (attn (V m c main_arg0) (V m c main_v2) (V m c main_v4)) := by
  rw [flushed3]
  unfold out0_3
  rw [View.canon_unit_zero hz]
  simp only [View.ld_unit_zero (S := S1x1x4096x64) hz, View.ld_unit_zero (S := S1x1x512x64) hz]
  funext j
  have h0 : (j 0).val < 1 := (j 0).isLt
  have h1 : (j 1).val < 1 := (j 1).isLt
  obtain ⟨s, d, rfl⟩ : ∃ (s : Fin 4096) (d : Fin 64), j = (ix4 (0 : Fin 1) (0 : Fin 1) s d : ((win0 3).xblock (grid0.coords t)).Idx) :=
    ⟨⟨(j 2).val, (j 2).isLt⟩, ⟨(j 3).val, (j 3).isLt⟩, funext fun a => Fin.ext (by
      match a with
      | ⟨0, _⟩ => show (j 0).val = 0; omega
      | ⟨1, _⟩ => show (j 1).val = 0; omega
      | ⟨2, _⟩ => rfl
      | ⟨3, _⟩ => rfl)⟩
  rw [View.read_apply]
  refine Eq.trans ?_ ((payload_at m c t s d).trans (congrArg _ (out_emb t s d).symm))
  rfl

/-- An index of the result is in point t's block iff each coordinate is in the block's range on its axis. -/
theorem mem_blk (t : Fin cfg0.N) (i : S4x16x4096x64.Idx) :
    i ∈ ((cfg0.win 3).blk t).view.set ↔ ∀ a : Fin 4, win0_3.index t a * S1x1x4096x64.size a ≤ (i a).val ∧ (i a).val < win0_3.index t a * S1x1x4096x64.size a + S1x1x4096x64.size a := by
  show i ∈ ((View.whole main_v5).slice (win0_3.rect t)).set ↔ _
  rw [View.set_slice_whole, Rect.mem_set_unit]
  exact Iff.rfl

/-- Every index of the result is in the block of the point of its batch and head. -/
theorem cover (i : S4x16x4096x64.Idx) : ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, ht⟩ := idx_onto ⟨(i 0).val, hi0⟩ ⟨(i 1).val, hi1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 4096 ≤ (i 2).val ∧ (i 2).val < win0_3.index t (2 : Fin 4) * 4096 + 4096; omega
  | ⟨3, _⟩ => show win0_3.index t (3 : Fin 4) * 64 ≤ (i 3).val ∧ (i 3).val < win0_3.index t (3 : Fin 4) * 64 + 64; omega

/-- The result array after the run is `attn` of the arrays the region finds. -/
theorem final (c : Dev nD) :
    (dats m 0 c).arrAt 3 cfg0.N = attn (V m c main_arg0) (V m c main_v2) (V m c main_v4) :=
  (dats m 0 c).arrAt_eq_of_cover 3 (attn (V m c main_arg0) (V m c main_v2) (V m c main_v4)) (fun t _ => flushed_eq m c t) cover

/-! ## The arrays the region finds -/

set_option maxHeartbeats 1000000 in
/-- The key window's array: the key rows gathered along the sequence axis. -/
theorem keys_eq (c : Dev nD) :
    (V m c main_v2 : S4x16x512x64.Idx → EReal)
      = Cert.ReferenceIdeal.ReadP.val_main_v1 (F := Ideal) (m ((c : Thread nD τ).loc main_arg1)) (m ((c : Thread nD τ).loc main_arg3)) := by
  dsimp only [V]
  simp only [hostOps0, hostOps0_1, hostOps0_2, hostOps0_3, hostOps0_4, List.flatten_cons, List.flatten_nil, List.append_nil, List.cons_append,
    List.nil_append]
  after_results_simp <;> rfl

set_option maxHeartbeats 1000000 in
/-- The value window's array: the value rows gathered along the sequence axis. -/
theorem values_eq (c : Dev nD) :
    (V m c main_v4 : S4x16x512x64.Idx → EReal)
      = Cert.ReferenceIdeal.ReadP.val_main_v3 (F := Ideal) (m ((c : Thread nD τ).loc main_arg2)) (m ((c : Thread nD τ).loc main_arg3)) := by
  dsimp only [V]
  simp only [hostOps0, hostOps0_1, hostOps0_2, hostOps0_3, hostOps0_4, List.flatten_cons, List.flatten_nil, List.append_nil, List.cons_append,
    List.nil_append]
  after_results_simp <;> rfl

/-! ## The run, read -/

/-- The kernel's run with its result array named: `attn` of the query and the gathered keys and values, the arguments unchanged. -/
theorem run : θ_run defs (onTc (τ := τ) (main (F := Ideal))) ⟨m, fun _ => 0, ρ⟩ fun r => ∀ c : Dev nD,
      r.2.mem ((c : Thread nD τ).loc main_v5)
        = attn (m ((c : Thread nD τ).loc main_arg0))
            (Cert.ReferenceIdeal.ReadP.val_main_v1 (F := Ideal) (m ((c : Thread nD τ).loc main_arg1)) (m ((c : Thread nD τ).loc main_arg3)))
            (Cert.ReferenceIdeal.ReadP.val_main_v3 (F := Ideal) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (by rw [final m c, V_main_arg0 m c, keys_eq m c, values_eq m c]), (h c).2⟩)
    (run_blocks m ρ)

end Cert.KernelIdeal.ArrayValue

end
-- ==== Proof.ReferenceRow.lean ====
/-
  The reference's result, entry by entry. For batch b, head h, query position s and column d the reference computes the
  scores (∑ e, q[b,h,s,e] · K'[b,h,k,e]) · 2⁻³ against the gathered key rows K', their maximum over k (taken from −∞, and
  once more against −∞), the weights exp (score − maximum), the weights' sum from 0, the normalised weights
  weight / sum, and the product ∑ k, normalised[k] · V'[b,h,k,d] with the gathered value rows V'. That is the attention
  row `rowR` of query row (b, h, s). Each stage is read at an index by the read-at-an-index lemma of its operation; the
  maximum over the key axis, which those lemmas leave whole, is read as a fold of max over that axis's coordinates.
-/
import proofs.«415950_j31825707663464_3_alg».proof.Proof.RefRead
import proofs.«415950_j31825707663464_3_alg».proof.Proof.AttentionRow
import Idealize.ShloMosaic.Lib.ValueIdx
import Idealize.ShloMosaic.PureOps.Reduce
import Idealize.ShloMosaic.PureOps.Ideal.Laws

noncomputable section

namespace Cert.ReferenceIdeal.Row

open Cert.ReferenceIdeal Cert.ReferenceIdeal.Gen Cert.ReferenceIdeal.ReadP Idealize.ShloMosaic Idealize.ShloMosaic.ValueIdx Cert.Attn

variable (x0 x1 x2 : (⟨S4x16x4096x64, .f32⟩ : BufTy).Contents (Elt Ideal)) (x3 : (⟨S16x512, .i32⟩ : BufTy).Contents (Elt Ideal))

/-- Query row (b, h, s). -/
abbrev qrow (b : Fin 4) (h : Fin 16) (s : Fin 4096) : Fin 64 → EReal := fun e => x0 (ix4 b h s e)
/-- The gathered key rows of batch b and head h. -/
abbrev krows (b : Fin 4) (h : Fin 16) : Fin 512 → Fin 64 → EReal := fun k e => val_main_v1 (F := Ideal) x1 x3 (ix4 b h k e)
/-- The gathered value rows of batch b and head h. -/
abbrev vrows (b : Fin 4) (h : Fin 16) : Fin 512 → Fin 64 → EReal := fun k d => val_main_v3 (F := Ideal) x2 x3 (ix4 b h k d)

/-! ## The index maps of the stages, at an index written by coordinates -/

theorem lidx4_eq (b : Fin 4) (h : Fin 16) (s : Fin 4096) (k : Fin 512) (e : Fin 64) : lidx_main_v4 (ix4 b h s k) e = ix4 b h s e :=
  funext fun a => Fin.ext (by match a with | ⟨0, _⟩ => rfl | ⟨1, _⟩ => rfl | ⟨2, _⟩ => rfl | ⟨3, _⟩ => rfl)
theorem ridx4_eq (b : Fin 4) (h : Fin 16) (s : Fin 4096) (k : Fin 512) (e : Fin 64) : ridx_main_v4 (ix4 b h s k) e = ix4 b h k e :=
  funext fun a => Fin.ext (by match a with | ⟨0, _⟩ => rfl | ⟨1, _⟩ => rfl | ⟨2, _⟩ => rfl | ⟨3, _⟩ => rfl)
theorem idx10_11_eq (b : Fin 4) (h : Fin 16) (s : Fin 4096) (k : Fin 512) : idx_main_v10 (idx_main_v11 (ix4 b h s k)) = ix3 b h s :=
  funext fun a => Fin.ext (by match a with | ⟨0, _⟩ => rfl | ⟨1, _⟩ => rfl | ⟨2, _⟩ => rfl)
theorem idx14_eq (b : Fin 4) (h : Fin 16) (s : Fin 4096) (k : Fin 512) : idx_main_v14 (ix3 b h s) k = ix4 b h s k :=
  funext fun a => Fin.ext (by match a with | ⟨0, _⟩ => rfl | ⟨1, _⟩ => rfl | ⟨2, _⟩ => rfl | ⟨3, _⟩ => rfl)
theorem idx15_16_eq (b : Fin 4) (h : Fin 16) (s : Fin 4096) (k : Fin 512) : idx_main_v15 (idx_main_v16 (ix4 b h s k)) = ix3 b h s :=
  funext fun a => Fin.ext (by match a with | ⟨0, _⟩ => rfl | ⟨1, _⟩ => rfl | ⟨2, _⟩ => rfl)
theorem lidx18_eq (b : Fin 4) (h : Fin 16) (s : Fin 4096) (d : Fin 64) (k : Fin 512) : lidx_main_v18 (ix4 b h s d) k = ix4 b h s k :=
  funext fun a => Fin.ext (by match a with | ⟨0, _⟩ => rfl | ⟨1, _⟩ => rfl | ⟨2, _⟩ => rfl | ⟨3, _⟩ => rfl)
theorem ridx18_eq (b : Fin 4) (h : Fin 16) (s : Fin 4096) (d : Fin 64) (k : Fin 512) : ridx_main_v18 (ix4 b h s d) k = ix4 b h k d :=
  funext fun a => Fin.ext (by match a with | ⟨0, _⟩ => rfl | ⟨1, _⟩ => rfl | ⟨2, _⟩ => rfl | ⟨3, _⟩ => rfl)

/-- Dropping the key axis of the score array, as a reduction of its shape. -/
theorem dropKeys : S4x16x4096x512.Reduces [3] S4x16x4096 := by decide

/-- A row index of the score array with the key coordinate put back. -/
theorem lift_eq (b : Fin 4) (h : Fin 16) (s : Fin 4096) (k : Fin 512) : dropKeys.lift (ix3 b h s) k = ix4 b h s k :=
  funext fun a => Fin.ext (by match a with | ⟨0, _⟩ => rfl | ⟨1, _⟩ => rfl | ⟨2, _⟩ => rfl | ⟨3, _⟩ => rfl)

/-! ## The stages at an index -/

/-- The scaled scores. -/
theorem scores_at (b : Fin 4) (h : Fin 16) (s : Fin 4096) (k : Fin 512) :
    val_main_v6 (F := Ideal) x0 x1 x3 (ix4 b h s k) = scoreR (qrow x0 b h s) (krows x1 x3 b h) k := by
  rw [val_main_v6_apply, val_main_v4_apply, val_main_v5_apply, val_main_cst_apply]
  simp only [lidx4_eq, ridx4_eq]
  rfl

set_option maxRecDepth 4096 in
/-- The maximum over the key axis, from −∞. -/
theorem max_at (b : Fin 4) (h : Fin 16) (s : Fin 4096) :
    val_main_v7 (F := Ideal) x0 x1 x3 (ix3 b h s)
      = (Finset.univ : Finset (Fin 512)).fold max negInf (scoreR (qrow x0 b h s) (krows x1 x3 b h)) := by
  unfold val_main_v7
  refine (Host.reduce_eq_fold_single (FloatOps.maximumf (F := Ideal) (φ := .f32)) (val_main_v6 (F := Ideal) x0 x1 x3) (val_main_cst_0 (F := Ideal))
    reducesTo_S4x16x4096x512_S4x16x4096_d3 dropKeys h_S_ (ix3 b h s)).trans ?_
  have hf : (val_main_v6 (F := Ideal) x0 x1 x3 ∘ dropKeys.lift (ix3 b h s)) = scoreR (qrow x0 b h s) (krows x1 x3 b h) :=
    funext fun k => (congrArg (val_main_v6 (F := Ideal) x0 x1 x3) (lift_eq b h s k)).trans (scores_at x0 x1 x3 b h s k)
  rw [hf]
  rfl

/-- The maximum the weights are taken against. -/
theorem shift_at (b : Fin 4) (h : Fin 16) (s : Fin 4096) (k : Fin 512) :
    val_main_v11 (F := Ideal) x0 x1 x3 (ix4 b h s k)
      = max negInf ((Finset.univ : Finset (Fin 512)).fold max negInf (scoreR (qrow x0 b h s) (krows x1 x3 b h))) := by
  rw [val_main_v11_apply, val_main_v10_apply, idx10_11_eq, val_main_v9_apply, max_at, val_main_v8_apply, val_main_cst_1_apply]
  rfl

/-- The weights. -/
theorem weights_at (b : Fin 4) (h : Fin 16) (s : Fin 4096) (k : Fin 512) :
    val_main_v13 (F := Ideal) x0 x1 x3 (ix4 b h s k)
      = Ideal.exp (scoreR (qrow x0 b h s) (krows x1 x3 b h) k
          - max negInf ((Finset.univ : Finset (Fin 512)).fold max negInf (scoreR (qrow x0 b h s) (krows x1 x3 b h)))) := by
  rw [val_main_v13_apply, val_main_v12_apply, scores_at, shift_at]
  rfl

/-- The weights' sum, from the word 0. -/
theorem sum_at (b : Fin 4) (h : Fin 16) (s : Fin 4096) (k : Fin 512) :
    val_main_v16 (F := Ideal) x0 x1 x3 (ix4 b h s k)
      = zero32 + ∑ k' : Fin 512, Ideal.exp (scoreR (qrow x0 b h s) (krows x1 x3 b h) k'
          - max negInf ((Finset.univ : Finset (Fin 512)).fold max negInf (scoreR (qrow x0 b h s) (krows x1 x3 b h)))) := by
  rw [val_main_v16_apply, val_main_v15_apply, idx15_16_eq, val_main_v14_apply, val_main_cst_2_apply]
  simp only [idx14_eq, weights_at]
  rfl

/-- The reference's result at (b, h, s, d) is the attention row of query row (b, h, s), at column d. -/
theorem result_at (b : Fin 4) (h : Fin 16) (s : Fin 4096) (d : Fin 64) :
    val_main_v18 (F := Ideal) x0 x1 x2 x3 (ix4 b h s d) = rowR (qrow x0 b h s) (krows x1 x3 b h) (vrows x2 x3 b h) d := by
  rw [val_main_v18_apply]
  unfold rowR
  refine Finset.sum_congr rfl fun k _ => ?_
  rw [lidx18_eq, ridx18_eq, val_main_v17_apply, weights_at, sum_at]
  rfl

end Cert.ReferenceIdeal.Row

end
-- ==== Proof.lean ====
/-
  Sparse attention: for every batch b and head h, 512 key rows and 512 value rows are gathered along the sequence axis at the
  positions the index table gives for h, and every query row (b, h, s) attends to them: scores q · k / √64, softmax over the
  512 slots, the weighted sum of the value rows.

  The kernel gathers on the host side, then runs one grid point per (b, h): it scales the query block by 2⁻³ before the
  product with the keys, subtracts each row's maximum, exponentiates, multiplies the weights by the values and divides each
  row ONCE by the row's weight sum. The reference scales the scores after the product, normalises the weights by their sum
  and then multiplies by the values. On the extended reals the two agree wherever every entry involved is a real number:
  then the scores are real, the row maximum is a real (512 slots: the set is not empty), every weight is a positive real and
  so is their sum, the factor 2⁻³ moves through the finite sum of products, and division by a nonzero real distributes
  over the finite weighted sum (`Cert.Attn.row_eq`).

  The precondition is what makes every entry real. The three float arrays hold reals (|x| < +∞). Every table entry lies in
  [-4096, 4096), the positions at which indexing an axis of extent 4096 is defined (a negative one counts from the end);
  outside that range the gather writes a NaN row, which on the extended reals is a row of −∞, and there the two programs
  part ways (a row of scores +∞ makes every weight 0, and 0 / 0 meets the value rows differently on the two sides). Inside
  it, every gathered entry is an entry of the source array (`Cert.Attn.gatheredK_real`, `gatheredV_real`).

  The kernel's result array is `Cert.Attn.attn` of the query and the gathered arrays (the body read at an index, the 64
  blocks assembled: `Cert.KernelIdeal.ArrayValue.run`); the reference's result is read stage by stage at an index
  (`Cert.ReferenceIdeal.Row.result_at`); both gathers are the same function of the same arguments. The frames are the
  programs' runs with the values dropped; the idealized kernel is the kernel's own text read on the extended reals.
-/
import proofs.«415950_j31825707663464_3_alg».proof.Defs
import proofs.«415950_j31825707663464_3_alg».proof.Proof.Gen.Kernel
import proofs.«415950_j31825707663464_3_alg».proof.Proof.Gen.Kernel.Skeleton
import proofs.«415950_j31825707663464_3_alg».proof.Proof.Gen.Kernel.Launch
import proofs.«415950_j31825707663464_3_alg».proof.Proof.Gen.Kernel.Points
import proofs.«415950_j31825707663464_3_alg».proof.Proof.Gen.Kernel.Frame
import proofs.«415950_j31825707663464_3_alg».proof.Proof.Gen.KernelIdeal
import proofs.«415950_j31825707663464_3_alg».proof.Proof.Gen.KernelIdeal.Skeleton
import proofs.«415950_j31825707663464_3_alg».proof.Proof.Gen.KernelIdeal.Launch
import proofs.«415950_j31825707663464_3_alg».proof.Proof.Gen.KernelIdeal.Points
import proofs.«415950_j31825707663464_3_alg».proof.Proof.Gen.KernelIdeal.Frame
import proofs.«415950_j31825707663464_3_alg».proof.Proof.Gen.ReferenceIdeal
import proofs.«415950_j31825707663464_3_alg».proof.Proof.Gen.Pre_finite_inputs
import proofs.«415950_j31825707663464_3_alg».proof.Proof.Gen.KernelIdeal.Value
import proofs.«415950_j31825707663464_3_alg».proof.Proof.RefRun
import proofs.«415950_j31825707663464_3_alg».proof.Proof.RefRead
import proofs.«415950_j31825707663464_3_alg».proof.Proof.AttentionRow
import proofs.«415950_j31825707663464_3_alg».proof.Proof.AttentionArray
import proofs.«415950_j31825707663464_3_alg».proof.Proof.IndexDomain
import proofs.«415950_j31825707663464_3_alg».proof.Proof.GatheredRows
import proofs.«415950_j31825707663464_3_alg».proof.Proof.KernelRow
import proofs.«415950_j31825707663464_3_alg».proof.Proof.KernelArray
import proofs.«415950_j31825707663464_3_alg».proof.Proof.ReferenceRow
import Idealize.ShloMosaic.Adequacy
import Idealize.ShloMosaic.Init

noncomputable section

namespace Cert.Proof

open Idealize.ShloMosaic Idealize.SL.Sem Idealize.ShloMosaic.ValueIdx Cert.Attn

/-- The kernel runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation of the kernel was rewritten for the reading on the extended reals. -/
theorem preserves : Cert.preserves_Kernel_KernelIdeal := trivial

/-- From memories that agree on the arguments both programs end with the same result array: `attn` of the query and the
    gathered keys and values. The kernel's run says so of its result; the reference's result, read at (b, h, s, d), is the
    row with the weights normalised first, equal to the kernel's row because every entry is real under the precondition. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v18_eq, (hagree c).1, (hagree c).2.1, (hagree c).2.2.1, (hagree c).2.2.2]
  obtain ⟨hq, hk, hv, hi⟩ := entries_of_pre _ _ _ _ (hpre c)
  funext i
  obtain ⟨b, h, s, d, rfl⟩ : ∃ (b : Fin 4) (h : Fin 16) (s : Fin 4096) (d : Fin 64), i = ix4 b h s d :=
    ⟨i 0, i 1, i 2, i 3, eq_ix4 i⟩
  rw [Cert.ReferenceIdeal.Row.result_at, attn_ix4]
  exact (row_eq _ _ _ (fun e => hq _) (fun k e => gatheredK_real _ _ hk hi _) (fun k d' => gatheredV_real _ _ hv hi _) d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
